-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S64x64 : Shape := ⟨2, ![64, 64]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S262144x64 .f32) (main_arg1 : FVec F S64x64 .f32) (main_arg2 : FVec F S64 .f32) (main_arg3 : FVec F S32x64 .f32) (main_arg4 : FVec F S32 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_v13 main_v16
-- ==== Kernel.lean ====
abbrev S262144x64 : Shape := ⟨2, ![262144, 64]⟩
abbrev S64x64 : Shape := ⟨2, ![64, 64]⟩
abbrev S64 : Shape := ⟨1, ![64]⟩
abbrev S32x64 : Shape := ⟨2, ![32, 64]⟩
abbrev S32 : Shape := ⟨1, ![32]⟩
abbrev S64x262144 : Shape := ⟨2, ![64, 262144]⟩
abbrev S1x64 : Shape := ⟨2, ![1, 64]⟩
abbrev S1x32 : Shape := ⟨2, ![1, 32]⟩
abbrev S32x262144 : Shape := ⟨2, ![32, 262144]⟩
abbrev S64x32768 : Shape := ⟨2, ![64, 32768]⟩
abbrev S32x32768 : Shape := ⟨2, ![32, 32768]⟩
abbrev S64x1 : Shape := ⟨2, ![64, 1]⟩
abbrev S32x1 : Shape := ⟨2, ![32, 1]⟩
abbrev S262144x32 : Shape := ⟨2, ![262144, 32]⟩

abbrev nBuf : Space → Nat
  | .hbm => 10
  | .vmem => 8
  | .smem => 0
  | _ => 0

abbrev bufTy : (tb : Table) → Fin (tcTables nBuf tb) → BufTy
  | .hbm, ⟨0, _⟩ => ⟨S262144x64, .f32⟩
  | .hbm, ⟨1, _⟩ => ⟨S64x64, .f32⟩
  | .hbm, ⟨2, _⟩ => ⟨S64, .f32⟩
  | .hbm, ⟨3, _⟩ => ⟨S32x64, .f32⟩
  | .hbm, ⟨4, _⟩ => ⟨S32, .f32⟩
  | .hbm, ⟨5, _⟩ => ⟨S64x262144, .f32⟩
  | .hbm, ⟨6, _⟩ => ⟨S1x64, .f32⟩
  | .hbm, ⟨7, _⟩ => ⟨S1x32, .f32⟩
  | .hbm, ⟨8, _⟩ => ⟨S32x262144, .f32⟩
  | .hbm, ⟨9, _⟩ => ⟨S262144x32, .f32⟩
  | .local _ .vmem, ⟨0, _⟩ => ⟨S64x32768, .f32⟩
  | .local _ .vmem, ⟨1, _⟩ => ⟨S64x32768, .f32⟩
  | .local _ .vmem, ⟨2, _⟩ => ⟨S64x64, .f32⟩
  | .local _ .vmem, ⟨3, _⟩ => ⟨S1x64, .f32⟩
  | .local _ .vmem, ⟨4, _⟩ => ⟨S32x64, .f32⟩
  | .local _ .vmem, ⟨5, _⟩ => ⟨S1x32, .f32⟩
  | .local _ .vmem, ⟨6, _⟩ => ⟨S32x32768, .f32⟩
  | .local _ .vmem, ⟨7, _⟩ => ⟨S32x32768, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x32768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S262144x64_S64x262144_1_0 : S262144x64.Transposes [1, 0] S64x262144
  shapeCasts_S64_S1x64 : S64.ShapeCasts S1x64
  shapeCasts_S32_S1x32 : S32.ShapeCasts S1x32
  inb_S64x32768_S64x32768_0_0 : ∀ a, (![0, 0] : Fin 2 → Nat) a + S64x32768.size a ≤ S64x32768.size a
  h_S64x32768 : 0 < S64x32768.numel
  shapeCasts_S64x32768_S64x32768 : S64x32768.ShapeCasts S64x32768
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S1x64_p1_0_S64x1 : S1x64.Transposes [1, 0] S64x1
  inb_S1x32_S1x32_0_0 : ∀ a, (![0, 0] : Fin 2 → Nat) a + S1x32.size a ≤ S1x32.size a
  h_S1x32 : 0 < S1x32.numel
  shapeCasts_S1x32_S1x32 : S1x32.ShapeCasts S1x32
  transposes_S1x32_p1_0_S32x1 : S1x32.Transposes [1, 0] S32x1
  broadcasts_S64x1_S64x32768 : S64x1.Broadcasts S64x32768
  broadcasts_S32x1_S32x32768 : S32x1.Broadcasts S32x32768
  inb_S32x32768_S32x32768_0_0 : ∀ a, (![0, 0] : Fin 2 → Nat) a + S32x32768.size a ≤ S32x32768.size a
  h_S32x32768 : 0 < S32x32768.numel
  transposes_S32x262144_S262144x32_1_0 : S32x262144.Transposes [1, 0] S262144x32
  dot_S64x64_S64x32768_S64x32768_1_0_0_1_n_n_wf : DotDims.WF S64x64 S64x32768 S64x32768 [1] [0] [0] [1] [] []
  dot_S32x64_S64x32768_S32x32768_1_0_0_1_n_n_wf : DotDims.WF S32x64 S64x32768 S32x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32768.size a ≤ S64x262144.size a
  hwx0_0 : ∀ i : grid0.Coords, EltTy.bits .f32 = 32 ∨ (Rect.block (s := S64x262144) S64x32768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x32768.size a ≤ S32x262144.size a
  hwx0_5 : ∀ i : grid0.Coords, EltTy.bits .f32 = 32 ∨ (Rect.block (s := S32x262144) S32x32768.size (cc0_transform_5 i) (hinb0_5 i)).WholeWords (EltTy.packing .f32)

variable [Facts₀]

def dot_S64x64_S64x32768_S64x32768_1_0_0_1_n_n : DotDims S64x64 S64x32768 S64x32768 where
  lhsContracting := [1]
  rhsContracting := [0]
  lhsNonContracting := [0]
  rhsNonContracting := [1]
  lhsBatch := []
  rhsBatch := []
  wf := dot_S64x64_S64x32768_S64x32768_1_0_0_1_n_n_wf
def dot_S32x64_S64x32768_S32x32768_1_0_0_1_n_n : DotDims S32x64 S64x32768 S32x32768 where
  lhsContracting := [1]
  rhsContracting := [0]
  lhsNonContracting := [0]
  rhsNonContracting := [1]
  lhsBatch := []
  rhsBatch := []
  wf := dot_S32x64_S64x32768_S32x32768_1_0_0_1_n_n_wf

abbrev win0_0 : Pipeline.Window sig grid0 :=
  Pipeline.Window.ofSpec (Memref.whole main_v0) S64x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S32x32768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144x64 : Shape := ⟨2, ![262144, 64]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x64 : Shape := ⟨2, ![1, 64]⟩
abbrev S64x32 : Shape := ⟨2, ![64, 32]⟩
abbrev S262144x32 : Shape := ⟨2, ![262144, 32]⟩
abbrev S1x32 : Shape := ⟨2, ![1, 32]⟩

abbrev nBuf : Space → Nat
  | .hbm => 16
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S64x64, .f32⟩
  | .hbm, ⟨2, _⟩ => ⟨S64, .f32⟩
  | .hbm, ⟨3, _⟩ => ⟨S32x64, .f32⟩
  | .hbm, ⟨4, _⟩ => ⟨S32, .f32⟩
  | .hbm, ⟨5, _⟩ => ⟨S64x64, .f32⟩
  | .hbm, ⟨6, _⟩ => ⟨S262144x64, .f32⟩
  | .hbm, ⟨7, _⟩ => ⟨S1x64, .f32⟩
  | .hbm, ⟨8, _⟩ => ⟨S262144x64, .f32⟩
  | .hbm, ⟨9, _⟩ => ⟨S262144x64, .f32⟩
  | .hbm, ⟨10, _⟩ => ⟨S262144x64, .f32⟩
  | .hbm, ⟨11, _⟩ => ⟨S64x32, .f32⟩
  | .hbm, ⟨12, _⟩ => ⟨S262144x32, .f32⟩
  | .hbm, ⟨13, _⟩ => ⟨S1x32, .f32⟩
  | .hbm, ⟨14, _⟩ => ⟨S262144x32, .f32⟩
  | .hbm, ⟨15, _⟩ => ⟨S262144x32, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  transposes_S32x64_S64x32_1_0 : S32x64.Transposes [1, 0] S64x32
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  dot_S262144x64_S64x64_S262144x64_1_0_0_1_n_n_wf : DotDims.WF S262144x64 S64x64 S262144x64 [1] [0] [0] [1] [] []
  dot_S262144x64_S64x32_S262144x32_1_0_0_1_n_n_wf : DotDims.WF S262144x64 S64x32 S262144x32 [1] [0] [0] [1] [] []

variable [Facts₀]

def dot_S262144x64_S64x64_S262144x64_1_0_0_1_n_n : DotDims S262144x64 S64x64 S262144x64 where
  lhsContracting := [1]
  rhsContracting := [0]
  lhsNonContracting := [0]
  rhsNonContracting := [1]
  lhsBatch := []
  rhsBatch := []
  wf := dot_S262144x64_S64x64_S262144x64_1_0_0_1_n_n_wf
def dot_S262144x64_S64x32_S262144x32_1_0_0_1_n_n : DotDims S262144x64 S64x32 S262144x32 where
  lhsContracting := [1]
  rhsContracting := [0]
  lhsNonContracting := [0]
  rhsNonContracting := [1]
  lhsBatch := []
  rhsBatch := []
  wf := dot_S262144x64_S64x32_S262144x32_1_0_0_1_n_n_wf

class Facts : Prop extends Facts₀ where

variable [Facts]
-- ==== Proof.Spec.lean ====
/-
  The function both programs compute, written with the token axis along COLUMNS.

  A two-layer perceptron: a token is a column of `xT` (64 features), the hidden layer has 64 units with
  activation `tanh`, the output layer 32 features. With the first layer's bias as a row `b1[0, ·]` and the
  second's as a row `b2[0, ·]`,

      hidden[k, a] = tanh (∑_d W1[k, d] · xT[d, a] + b1[0, k])
      outT[o, a]   = ∑_k W2[o, k] · hidden[k, a] + b2[0, o]

  over the extended reals. The number of columns `B` is a parameter: the same definition reads a block of
  columns and the whole array, and column `a` of the result depends on column `a` of `xT` only
  (`outT_col`), which is what lets a block of the result be computed from the same block of the input.
-/
import Idealize.ShloMosaic.PureOps.Ideal
import Idealize.ShloMosaic.Lib.ValueIdx

noncomputable section

namespace Cert.Mlp

open Idealize.ShloMosaic Idealize.ShloMosaic.ValueIdx

/-- Hidden unit `k` of token column `a`: `tanh (∑_d W1[k, d] · xT[d, a] + b1[0, k])`. -/
def hidden {B : Nat} (xT : FVec Ideal ⟨2, ![64, B]⟩ .f32) (W1 : FVec Ideal ⟨2, ![64, 64]⟩ .f32)
    (b1 : FVec Ideal ⟨2, ![1, 64]⟩ .f32) (k : Fin 64) (a : Fin B) : EReal :=
  Ideal.tanh ((∑ d : Fin 64, W1 (ix2 k d) * xT (ix2 d a)) + b1 (ix2 (0 : Fin 1) k))

/-- Output feature `i 0` of token column `i 1`: `∑_k W2[o, k] · hidden[k, a] + b2[0, o]`. -/
def outT {B : Nat} (xT : FVec Ideal ⟨2, ![64, B]⟩ .f32) (W1 : FVec Ideal ⟨2, ![64, 64]⟩ .f32)
    (b1 : FVec Ideal ⟨2, ![1, 64]⟩ .f32) (W2 : FVec Ideal ⟨2, ![32, 64]⟩ .f32) (b2 : FVec Ideal ⟨2, ![1, 32]⟩ .f32) :
    FVec Ideal ⟨2, ![32, B]⟩ .f32 :=
  fun i => (∑ k : Fin 64, W2 (ix2 (i 0) k) * hidden xT W1 b1 k (i 1)) + b2 (ix2 (0 : Fin 1) (i 0))

/-- The result at `(o, a)`, spelt out. -/
theorem outT_apply {B : Nat} (xT : FVec Ideal ⟨2, ![64, B]⟩ .f32) (W1 : FVec Ideal ⟨2, ![64, 64]⟩ .f32)
    (b1 : FVec Ideal ⟨2, ![1, 64]⟩ .f32) (W2 : FVec Ideal ⟨2, ![32, 64]⟩ .f32) (b2 : FVec Ideal ⟨2, ![1, 32]⟩ .f32)
    (o : Fin 32) (a : Fin B) :
    outT xT W1 b1 W2 b2 (ix2 o a)
      = (∑ k : Fin 64, W2 (ix2 o k) * Ideal.tanh ((∑ d : Fin 64, W1 (ix2 k d) * xT (ix2 d a)) + b1 (ix2 (0 : Fin 1) k)))
        + b2 (ix2 (0 : Fin 1) o) := rfl

/-- A column of the result depends on the same column of the input only: two inputs (of any widths) that
    agree on column `a` of the one and column `a'` of the other give results that agree there. -/
theorem outT_col {B B' : Nat} (xT : FVec Ideal ⟨2, ![64, B]⟩ .f32) (xT' : FVec Ideal ⟨2, ![64, B']⟩ .f32)
    (W1 : FVec Ideal ⟨2, ![64, 64]⟩ .f32) (b1 : FVec Ideal ⟨2, ![1, 64]⟩ .f32)
    (W2 : FVec Ideal ⟨2, ![32, 64]⟩ .f32) (b2 : FVec Ideal ⟨2, ![1, 32]⟩ .f32)
    (o : Fin 32) (a : Fin B) (a' : Fin B') (h : ∀ d : Fin 64, xT (ix2 d a) = xT' (ix2 d a')) :
    outT xT W1 b1 W2 b2 (ix2 o a) = outT xT' W1 b1 W2 b2 (ix2 o a') := by
  rw [outT_apply, outT_apply]
  simp only [h]

end Cert.Mlp

end
-- ==== Proof.ReferenceRows.lean ====
/-
  The reference's result is the two-layer function of `Spec.lean`, read with rows and columns exchanged.

  The reference keeps a token as a ROW of `x`: entry `(n, o)` of its result is
  `∑_k tanh (∑_d x[n, d] · W1ᵀ[d, k] + b1[k]) · W2ᵀ[k, o] + b2[o]`. With `xT` the transpose of `x` and the two
  bias vectors laid out as rows, that is `outT xT W1 b1 W2 b2` at `(o, n)`: the same sums, each product with
  its two factors in the other order, so the only law used is commutativity of the product on the
  extended reals (no finiteness is needed: nothing is distributed or cancelled).
-/
import proofs.«148671_g38903813767480_retrytranche2_1377_25_alg».proof.Proof.Gen.ReferenceIdeal.Read
import proofs.«148671_g38903813767480_retrytranche2_1377_25_alg».proof.Proof.Spec

noncomputable section

namespace Cert.Mlp.Rows

open Cert.ReferenceIdeal Cert.ReferenceIdeal.Gen Cert.ReferenceIdeal.Read
open Idealize.ShloMosaic Idealize.ShloMosaic.ValueIdx

/-- Entry `(n, o)` of the reference's result is `outT` at `(o, n)`, for any `xT` that is `x` transposed (`hx`)
    and any rows `b1r`, `b2r` that hold the bias vectors (`hb1`, `hb2`). -/
theorem result_apply (x : (⟨S262144x64, .f32⟩ : BufTy).Contents (Elt Ideal)) (W1 : (⟨S64x64, .f32⟩ : BufTy).Contents (Elt Ideal))
    (b1 : (⟨S64, .f32⟩ : BufTy).Contents (Elt Ideal)) (W2 : (⟨S32x64, .f32⟩ : BufTy).Contents (Elt Ideal))
    (b2 : (⟨S32, .f32⟩ : BufTy).Contents (Elt Ideal))
    (xT : FVec Ideal ⟨2, ![64, 262144]⟩ .f32) (b1r : FVec Ideal ⟨2, ![1, 64]⟩ .f32) (b2r : FVec Ideal ⟨2, ![1, 32]⟩ .f32)
    (hx : ∀ (d : Fin 64) (n : Fin 262144), xT (ix2 d n) = x (ix2 n d))
    (hb1 : ∀ k : Fin 64, b1r (ix2 (0 : Fin 1) k) = b1 (ix1 k))
    (hb2 : ∀ o : Fin 32, b2r (ix2 (0 : Fin 1) o) = b2 (ix1 o))
    (n : Fin 262144) (o : Fin 32) :
    val_main_v10 (F := Ideal) x W1 b1 W2 b2 (ix2 n o) = Cert.Mlp.outT xT W1 b1r W2 b2r (ix2 o n) := by
  rw [Cert.Mlp.outT_apply, val_main_v10_apply, val_main_v7_apply, val_main_v9_apply, val_main_v8_apply]
  simp only [val_main_v5_apply, val_main_v4_apply, val_main_v1_apply, val_main_v3_apply, val_main_v2_apply,
    val_main_v0_apply, val_main_v6_apply]
  -- where each operand is read
  have e7l : ∀ k : Fin 64, lidx_main_v7 (ix2 n o) k = ix2 n k := fun k => funext fun a => Fin.ext (by
    match a with | ⟨0, _⟩ => rfl | ⟨1, _⟩ => rfl)
  have e7r : ∀ k : Fin 64, idx_main_v6 (ridx_main_v7 (ix2 n o) k) = ix2 o k := fun k => funext fun a => Fin.ext (by
    match a with | ⟨0, _⟩ => rfl | ⟨1, _⟩ => rfl)
  have e1l : ∀ k d : Fin 64, lidx_main_v1 (ix2 n k) d = ix2 n d := fun k d => funext fun a => Fin.ext (by
    match a with | ⟨0, _⟩ => rfl | ⟨1, _⟩ => rfl)
  have e1r : ∀ k d : Fin 64, idx_main_v0 (ridx_main_v1 (ix2 n k) d) = ix2 k d := fun k d => funext fun a => Fin.ext (by
    match a with | ⟨0, _⟩ => rfl | ⟨1, _⟩ => rfl)
  have eb1 : ∀ k : Fin 64, idx_main_v2 (idx_main_v3 (ix2 n k)) = ix1 k := fun k => funext fun a => Fin.ext (by
    match a with | ⟨0, _⟩ => rfl)
  have eb2 : idx_main_v8 (idx_main_v9 (ix2 n o)) = ix1 o := funext fun a => Fin.ext (by
    match a with | ⟨0, _⟩ => rfl)
  simp only [e7l, e7r, e1l, e1r, eb1, eb2, Ideal.addf_def, Ideal.hostUnary_tanh_def, hx, hb1, hb2]
  refine congrArg (· + _) (Finset.sum_congr rfl fun k _ => ?_)
  rw [mul_comm]
  refine congrArg (fun s => W2 (ix2 o k) * Ideal.tanh (s + b1 (ix1 k))) (Finset.sum_congr rfl fun d _ => mul_comm _ _)

end Cert.Mlp.Rows

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.LibColumnBroadcast.lean ====
/-
  A column broadcast along its rows, read at an index.

  A `[a, 1]` array broadcast to `[a, b]` holds, at `(p, c)`, the column's entry `p`, whatever the column `c`:
  the companion, for a column, of the library's lemma for one row broadcast over many.
-/
import Idealize.ShloMosaic.Lib.Pipeline.Value
import Idealize.ShloMosaic.Lib.ValueIdx

namespace Idealize.ShloMosaic.ColumnBroadcast

open Idealize.ShloMosaic Idealize.ShloMosaic.ValueIdx

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnBroadcast
-- ==== Proof.Body.lean ====
/-
  The kernel body's stored value is the two-layer function of its loaded blocks.

  At a grid point the body loads a block `x0` of 32768 token columns (64 features each), both weight matrices and
  both bias rows, and stores `W2 · tanh (W1 · x0 + b1ᵀ) + b2ᵀ`: two matrix products into zero accumulators, each
  bias row transposed to a column and broadcast along the token axis. Changes of float format are the identity on
  the extended reals, so entry `(o, j)` of the stored value is
  `∑_k W2[o, k] · tanh (∑_d W1[k, d] · x0[d, j] + b1[0, k]) + b2[0, o]`: `outT` of `Spec.lean` at width 32768.
-/
import proofs.«148671_g38903813767480_retrytranche2_1377_25_alg».proof.Proof.Gen.KernelIdeal.Skeleton
import proofs.«148671_g38903813767480_retrytranche2_1377_25_alg».proof.Proof.Spec
import proofs.«148671_g38903813767480_retrytranche2_1377_25_alg».proof.Proof.LibMatmulAt
import proofs.«148671_g38903813767480_retrytranche2_1377_25_alg».proof.Proof.LibColumnBroadcast
import Idealize.ShloMosaic.Lib.ValueLayout
import Idealize.ShloMosaic.Lib.Pipeline.Value
import Idealize.ShloMosaic.PureOps.Ideal.Laws

noncomputable section

namespace Cert.Mlp.Body

open Cert.KernelIdeal Cert.KernelIdeal.Gen
open Idealize.ShloMosaic Idealize.ShloMosaic.ValueIdx

/-! ## Where the two products read their operands -/

theorem lhs1_0 (i : S64x32768.Idx) (q : dot_S64x64_S64x32768_S64x32768_1_0_0_1_n_n.contr.Idx) : (dot_S64x64_S64x32768_S64x32768_1_0_0_1_n_n.lhsIdx i q 0).val = (i 0).val := by
  unfold DotDims.lhsIdx
  rw [dif_neg (show ¬(0 : Fin S64x64.rank) ∈ dot_S64x64_S64x32768_S64x32768_1_0_0_1_n_n.lhsBatch by decide), dif_pos (show (0 : Fin S64x64.rank) ∈ dot_S64x64_S64x32768_S64x32768_1_0_0_1_n_n.lhsNonContracting by decide)]
  rfl
theorem lhs1_1 (i : S64x32768.Idx) (q : dot_S64x64_S64x32768_S64x32768_1_0_0_1_n_n.contr.Idx) : (dot_S64x64_S64x32768_S64x32768_1_0_0_1_n_n.lhsIdx i q 1).val = (q ⟨0, by decide⟩).val :=
  dot_S64x64_S64x32768_S64x32768_1_0_0_1_n_n.lhsIdx_val_of_single rfl i q
theorem rhs1_0 (i : S64x32768.Idx) (q : dot_S64x64_S64x32768_S64x32768_1_0_0_1_n_n.contr.Idx) : (dot_S64x64_S64x32768_S64x32768_1_0_0_1_n_n.rhsIdx i q 0).val = (q ⟨0, by decide⟩).val :=
  dot_S64x64_S64x32768_S64x32768_1_0_0_1_n_n.rhsIdx_val_of_single rfl i q
theorem rhs1_1 (i : S64x32768.Idx) (q : dot_S64x64_S64x32768_S64x32768_1_0_0_1_n_n.contr.Idx) : (dot_S64x64_S64x32768_S64x32768_1_0_0_1_n_n.rhsIdx i q 1).val = (i 1).val := by
  unfold DotDims.rhsIdx
  rw [dif_neg (show ¬(1 : Fin S64x32768.rank) ∈ dot_S64x64_S64x32768_S64x32768_1_0_0_1_n_n.rhsBatch by decide), dif_pos (show (1 : Fin S64x32768.rank) ∈ dot_S64x64_S64x32768_S64x32768_1_0_0_1_n_n.rhsNonContracting by decide)]
  rfl

theorem lhs2_0 (i : S32x32768.Idx) (q : dot_S32x64_S64x32768_S32x32768_1_0_0_1_n_n.contr.Idx) : (dot_S32x64_S64x32768_S32x32768_1_0_0_1_n_n.lhsIdx i q 0).val = (i 0).val := by
  unfold DotDims.lhsIdx
  rw [dif_neg (show ¬(0 : Fin S32x64.rank) ∈ dot_S32x64_S64x32768_S32x32768_1_0_0_1_n_n.lhsBatch by decide), dif_pos (show (0 : Fin S32x64.rank) ∈ dot_S32x64_S64x32768_S32x32768_1_0_0_1_n_n.lhsNonContracting by decide)]
  rfl
theorem lhs2_1 (i : S32x32768.Idx) (q : dot_S32x64_S64x32768_S32x32768_1_0_0_1_n_n.contr.Idx) : (dot_S32x64_S64x32768_S32x32768_1_0_0_1_n_n.lhsIdx i q 1).val = (q ⟨0, by decide⟩).val :=
  dot_S32x64_S64x32768_S32x32768_1_0_0_1_n_n.lhsIdx_val_of_single rfl i q
theorem rhs2_0 (i : S32x32768.Idx) (q : dot_S32x64_S64x32768_S32x32768_1_0_0_1_n_n.contr.Idx) : (dot_S32x64_S64x32768_S32x32768_1_0_0_1_n_n.rhsIdx i q 0).val = (q ⟨0, by decide⟩).val :=
  dot_S32x64_S64x32768_S32x32768_1_0_0_1_n_n.rhsIdx_val_of_single rfl i q
theorem rhs2_1 (i : S32x32768.Idx) (q : dot_S32x64_S64x32768_S32x32768_1_0_0_1_n_n.contr.Idx) : (dot_S32x64_S64x32768_S32x32768_1_0_0_1_n_n.rhsIdx i q 1).val = (i 1).val := by
  unfold DotDims.rhsIdx
  rw [dif_neg (show ¬(1 : Fin S64x32768.rank) ∈ dot_S32x64_S64x32768_S32x32768_1_0_0_1_n_n.rhsBatch by decide), dif_pos (show (1 : Fin S64x32768.rank) ∈ dot_S32x64_S64x32768_S32x32768_1_0_0_1_n_n.rhsNonContracting by decide)]
  rfl

/-! ## A bias row as a column along the token axis -/

/-- A bias row, transposed to a column and broadcast along `b` token columns, reads at `(p, c)` the row's
    entry `p`. -/
theorem bias_column_apply {a b : ℕ} (row : FVec Ideal ⟨2, ![1, a]⟩ .f32)
    (hc : (⟨2, ![1, a]⟩ : Shape).ShapeCasts ⟨2, ![1, a]⟩) (ht : (⟨2, ![1, a]⟩ : Shape).Transposes [1, 0] ⟨2, ![a, 1]⟩)
    (hb : (⟨2, ![a, 1]⟩ : Shape).Broadcasts ⟨2, ![a, b]⟩) (p : Fin a) (c : Fin b) :
    broadcastTo ⟨2, ![a, b]⟩ (transpose ⟨2, ![a, 1]⟩ [1, 0] (shapeCast ⟨2, ![1, a]⟩ row hc) ht) hb (ix2 p c)
      = row (ix2 (0 : Fin 1) p) := by
  rw [ColumnBroadcast.broadcastTo_a1_ab_apply, transpose_ix2_apply, shapeCast_self]

/-! ## The stored value -/

/-- The activation is applied entry by entry. -/
theorem tanh_apply {s : Shape} {φ : FTy} (v : FVec Ideal s φ) (i : s.Idx) : tanh v i = Ideal.tanh (v i) := rfl

/-- Entry `(o, j)` of what the body stores is `outT` of its loaded blocks there. -/
theorem stored_apply (x0 : Vec Ideal S64x32768 .f32) (w1 : Vec Ideal S64x64 .f32) (w2 : Vec Ideal S32x64 .f32)
    (b1r : Vec Ideal S1x64 .f32) (b2r : Vec Ideal S1x32 .f32) (o : Fin 32) (j : Fin 32768) :
    k0_pay1 (F := Ideal) x0 w1 w2 b1r b2r (ix2 o j) = Cert.Mlp.outT x0 w1 b1r w2 b2r (ix2 o j) := by
  rw [Cert.Mlp.outT_apply]
  unfold k0_pay1
  rw [addf_apply]
  refine congrArg₂ (· + ·) ?_ (bias_column_apply b2r _ _ _ o j)
  -- the second product, entry (o, j): a sum over the hidden units
  refine (MatmulAt.matmul_zero_at dot_S32x64_S64x32768_S32x32768_1_0_0_1_n_n rfl rfl lhs2_0 lhs2_1 rhs2_0 rhs2_1 none _ _ o j).trans ?_
  refine Finset.sum_congr rfl fun k _ => ?_
  rw [truncf_apply, truncf_apply, tanh_apply, addf_apply]
  refine congrArg (fun s => w2 (ix2 o k) * Ideal.tanh s) ?_
  refine congrArg₂ (· + ·) ?_ (bias_column_apply b1r _ _ _ k j)
  -- the first product, entry (k, j): a sum over the input features
  refine (MatmulAt.matmul_zero_at dot_S64x64_S64x32768_S64x32768_1_0_0_1_n_n rfl rfl lhs1_0 lhs1_1 rhs1_0 rhs1_1 none _ _ k j).trans ?_
  refine Finset.sum_congr rfl fun d _ => ?_
  rw [truncf_apply, truncf_apply, shapeCast_self]

end Cert.Mlp.Body

end
-- ==== Proof.Blocks.lean ====
/-
  From what each grid point writes back to the whole result array.

  The output window's block at a grid point is a band of 32768 token columns of the [32, 262144] result; the token
  window's block at that point is the same band of columns of the transposed tokens, and every other window's block
  is its whole array (both weight matrices and both bias rows). A column of `outT` depends on the same column of the
  tokens only, so what a point writes back is its band of `outT` of the whole arrays; the eight bands tile the
  result, which therefore ends holding `outT` of the arrays as the region found them.
-/
import proofs.«148671_g38903813767480_retrytranche2_1377_25_alg».proof.Proof.Gen.KernelIdeal.Frame
import proofs.«148671_g38903813767480_retrytranche2_1377_25_alg».proof.Proof.Body
import Idealize.ShloMosaic.Lib.Pipeline.Value

set_option maxRecDepth 16384

noncomputable section

namespace Cert.Mlp.Blocks

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem zeros : (![0, 0] : Fin 2 → Nat) = fun _ => 0 := funext fun a => by fin_cases a <;> rfl

/-- The result with the token axis along columns, of the arrays as the region finds them. -/
abbrev wholeT (c : Dev nD) : S32x262144.Idx → EReal :=
  Cert.Mlp.outT (V m c main_v0) (V m c main_arg1) (V m c main_v1) (V m c main_arg3) (V m c main_v2)

/-- The index maps over the grid: the token window and the output window move together along the token axis and
    sit at block row 0; every other window's block is block (0, 0); there are eight bands. -/
theorem idx_facts : ∀ t : Fin cfg0.N,
    win0_0.index t (0 : Fin 2) = 0 ∧ win0_0.index t (1 : Fin 2) = win0_5.index t (1 : Fin 2)
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) ≤ 7 :=
  (by decide +kernel : ∀ t : Fin grid0.N, _)

/-- Every band is some point's. -/
theorem idx_onto : ∀ q : Fin 8, ∃ t : Fin cfg0.N, win0_5.index t = ![0, q.val] :=
  (by decide +kernel : ∀ q : Fin 8, ∃ t : Fin grid0.N, win0_5.index t = ![0, q.val])

/-! ## The input windows' blocks -/

/-- The first weight matrix's block is the matrix. -/
theorem blk_w1 (c : Dev nD) (t : Fin cfg0.N) : iblk m c 1 t = V m c main_arg1 := by
  obtain ⟨-, -, e0, e1, -⟩ := idx_facts t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- The first bias row's block is the row. -/
theorem blk_b1 (c : Dev nD) (t : Fin cfg0.N) : iblk m c 2 t = V m c main_v1 := by
  obtain ⟨-, -, -, -, e0, e1, -⟩ := idx_facts t
  funext y
  show V m c main_v1 (((cfg0.win 2).blk t).view.emb y) = V m c main_v1 y
  refine congrArg (V m c main_v1) (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- The second weight matrix's block is the matrix. -/
theorem blk_w2 (c : Dev nD) (t : Fin cfg0.N) : iblk m c 3 t = V m c main_arg3 := by
  obtain ⟨-, -, -, -, -, -, e0, e1, -⟩ := idx_facts t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 32 + 1 * (y 0).val = (y 0).val; omega
  | ⟨1, _⟩ => show win0_3.index t (1 : Fin 2) * 64 + 1 * (y 1).val = (y 1).val; omega

/-- The second bias row's block is the row. -/
theorem blk_b2 (c : Dev nD) (t : Fin cfg0.N) : iblk m c 4 t = V m c main_v2 := by
  obtain ⟨-, -, -, -, -, -, -, -, e0, e1, -⟩ := idx_facts t
  funext y
  show V m c main_v2 (((cfg0.win 4).blk t).view.emb y) = V m c main_v2 y
  refine congrArg (V m c main_v2) (funext fun a => Fin.ext ?_)
  match a with
  | ⟨0, _⟩ => show win0_4.index t (0 : Fin 2) * 1 + 1 * (y 0).val = (y 0).val; omega
  | ⟨1, _⟩ => show win0_4.index t (1 : Fin 2) * 32 + 1 * (y 1).val = (y 1).val; omega

/-- Column `j` of the token window's block at point `t` is column `band · 32768 + j` of the token array. -/
theorem blk_tokens_apply (c : Dev nD) (t : Fin cfg0.N) (d : Fin 64) (j : Fin 32768) (n : Fin 262144)
    (hn : n.val = win0_5.index t (1 : Fin 2) * 32768 + j.val) :
    iblk m c 0 t (ix2 d j) = V m c main_v0 (ix2 d n) := by
  obtain ⟨e0, e1, -⟩ := idx_facts t
  show V m c main_v0 (((cfg0.win 0).blk t).view.emb (ix2 d j)) = V m c main_v0 (ix2 d n)
  refine congrArg (V m c main_v0) (funext fun a => Fin.ext ?_)
  match a with
  | ⟨0, _⟩ => show win0_0.index t (0 : Fin 2) * 64 + 1 * d.val = d.val; omega
  | ⟨1, _⟩ => show win0_0.index t (1 : Fin 2) * 32768 + 1 * j.val = n.val; omega

/-! ## What a point writes back -/

/-- What point `t` writes back is its band of `wholeT`. -/
theorem flushed_eq (c : Dev nD) (t : Fin cfg0.N) :
    (dats m 0 c).flushed 5 t = ((cfg0.win 5).blk t).view.read (Elt Ideal) (wholeT m c) := by
  show (cfg0.win 5).cut (grid0.coords t) ((dats m 0 c).after 5 t) = _
  rw [after0_5]
  unfold out0_5
  rw [View.canon_unit_zero zeros]
  simp only [View.ld_unit_zero (S := S64x32768) zeros, View.ld_unit_zero (S := S64x64) zeros,
    View.ld_unit_zero (S := S1x64) zeros, View.ld_unit_zero (S := S32x64) zeros, View.ld_unit_zero (S := S1x32) zeros]
  rw [blk_w1, blk_b1, blk_w2, blk_b2]
  obtain ⟨-, -, -, -, -, -, -, -, -, -, e50, e51⟩ := idx_facts t
  funext y
  have hy0 : (y 0).val < 32 := (y 0).isLt
  have hy1 : (y 1).val < 32768 := (y 1).isLt
  -- the array index under the block index y
  have hemb : ((cfg0.win 5).blk t).view.emb y
      = ix2 (⟨(y 0).val, hy0⟩ : Fin 32) (⟨win0_5.index t (1 : Fin 2) * 32768 + (y 1).val, by omega⟩ : Fin 262144) :=
    funext fun a => Fin.ext (by
      match a with
      | ⟨0, _⟩ => show win0_5.index t (0 : Fin 2) * 32 + 1 * (y 0).val = (y 0).val; omega
      | ⟨1, _⟩ => show win0_5.index t (1 : Fin 2) * 32768 + 1 * (y 1).val = win0_5.index t (1 : Fin 2) * 32768 + (y 1).val; omega)
  show k0_pay1 (iblk m c 0 t) (V m c main_arg1) (V m c main_arg3) (V m c main_v1) (V m c main_v2) y
    = wholeT m c (((cfg0.win 5).blk t).view.emb y)
  rw [hemb]
  refine (congrArg (k0_pay1 (iblk m c 0 t) (V m c main_arg1) (V m c main_arg3) (V m c main_v1) (V m c main_v2))
    (eq_ix2 (n0 := 32) (n1 := 32768) y)).trans ?_
  refine (Body.stored_apply (iblk m c 0 t) (V m c main_arg1) (V m c main_arg3) (V m c main_v1) (V m c main_v2) (y 0) (y 1)).trans ?_
  exact Cert.Mlp.outT_col (iblk m c 0 t) (V m c main_v0) (V m c main_arg1) (V m c main_v1) (V m c main_arg3) (V m c main_v2)
    (y 0) (y 1) (⟨win0_5.index t (1 : Fin 2) * 32768 + (y 1).val, by omega⟩ : Fin 262144)
    (fun d => blk_tokens_apply m c t d (y 1) _ rfl)

/-! ## The bands tile the result -/

/-- An index of the result is in point `t`'s block iff each coordinate is in the block's range on its axis. -/
theorem mem_blk (t : Fin cfg0.N) (i : S32x262144.Idx) :
    i ∈ ((cfg0.win 5).blk t).view.set ↔ ∀ a : Fin 2, win0_5.index t a * S32x32768.size a ≤ (i a).val ∧ (i a).val < win0_5.index t a * S32x32768.size a + S32x32768.size a := by
  show i ∈ ((View.whole main_v3).slice (win0_5.rect t)).set ↔ _
  rw [View.set_slice_whole, Rect.mem_set_unit]
  exact Iff.rfl

/-- Every index of the result is in the band of its token column: point `n / 32768`'s. -/
theorem cover (i : S32x262144.Idx) :
    ∃ t : Fin cfg0.N, (cfg0.win 5).flush t = true ∧ i ∈ ((cfg0.win 5).blk t).view.set := by
  have hi0 : (i 0).val < 32 := (i 0).isLt
  have hi1 : (i 1).val < 262144 := (i 1).isLt
  obtain ⟨t, ht⟩ := idx_onto ⟨(i 1).val / 32768, by omega⟩
  have q0 : win0_5.index t (0 : Fin 2) = 0 := congrFun ht 0
  have q1 : win0_5.index t (1 : Fin 2) = (i 1).val / 32768 := congrFun ht 1
  refine ⟨t, flush0_5 t, ?_⟩
  rw [mem_blk]
  intro a
  match a with
  | ⟨0, _⟩ => show win0_5.index t (0 : Fin 2) * 32 ≤ (i 0).val ∧ (i 0).val < win0_5.index t (0 : Fin 2) * 32 + 32; omega
  | ⟨1, _⟩ => show win0_5.index t (1 : Fin 2) * 32768 ≤ (i 1).val ∧ (i 1).val < win0_5.index t (1 : Fin 2) * 32768 + 32768; omega

/-- The result array after the run. -/
theorem final (c : Dev nD) : (dats m 0 c).arrAt 5 cfg0.N = wholeT m c :=
  (dats m 0 c).arrAt_eq_of_cover 5 (wholeT m c) (fun t _ => flushed_eq m c t) cover

end Cert.Mlp.Blocks

end
-- ==== Proof.Entry.lean ====
/-
  What the kernel region finds in its arrays.

  Before the region the program transposes the tokens — `x` of shape [262144, 64] becomes [64, 262144], a token
  a column — and reshapes each bias vector to a row; the weight matrices reach the region as they were given.
-/
import proofs.«148671_g38903813767480_retrytranche2_1377_25_alg».proof.Proof.Gen.KernelIdeal.Frame
import Idealize.ShloMosaic.Lib.StableHlo.Run
import Idealize.ShloMosaic.Lib.ValueLayout

noncomputable section

namespace Cert.Mlp.Entry

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The region's token array is `x` transposed: entry `(d, n)` is feature `d` of token `n`. -/
theorem tokens_apply (c : Dev nD) (d : Fin 64) (n : Fin 262144) :
    V m c main_v0 (ix2 d n) = m ((c : Thread nD τ).loc main_arg0) (ix2 n d) := by
  have e : (V m c main_v0 : S64x262144.Idx → EReal)
      = transpose S64x262144 [1, 0] (m ((c : Thread nD τ).loc main_arg0)) Cert.KernelIdeal.Gen.transposes_S262144x64_S64x262144_1_0 := by
    show StableHlo.after hostOps0 (fun b => m (c, b)) (Proc.devRef .tc main_v0) = _
    after_results
  exact (congrFun e _).trans (transpose_ix2_apply _ _ d n)

/-- The first bias as the region finds it: a row. -/
theorem bias1_apply (c : Dev nD) (k : Fin 64) :
    V m c main_v1 (ix2 (0 : Fin 1) k) = m ((c : Thread nD τ).loc main_arg2) (ix1 k) := by
  have e : (V m c main_v1 : S1x64.Idx → EReal)
      = shapeCast S1x64 (m ((c : Thread nD τ).loc main_arg2)) Cert.KernelIdeal.Gen.shapeCasts_S64_S1x64 := by
    show StableHlo.after hostOps0 (fun b => m (c, b)) (Proc.devRef .tc main_v1) = _
    after_results
    rfl
  exact (congrFun e _).trans (shapeCast_a_1a_apply _ _ 0 k)

/-- The second bias as the region finds it: a row. -/
theorem bias2_apply (c : Dev nD) (o : Fin 32) :
    V m c main_v2 (ix2 (0 : Fin 1) o) = m ((c : Thread nD τ).loc main_arg4) (ix1 o) := by
  have e : (V m c main_v2 : S1x32.Idx → EReal)
      = shapeCast S1x32 (m ((c : Thread nD τ).loc main_arg4)) Cert.KernelIdeal.Gen.shapeCasts_S32_S1x32 := by
    show StableHlo.after hostOps0 (fun b => m (c, b)) (Proc.devRef .tc main_v2) = _
    after_results
    rfl
  exact (congrFun e _).trans (shapeCast_a_1a_apply _ _ 0 o)

end Cert.Mlp.Entry

end
-- ==== Proof.Result.lean ====
/-
  The kernel program's run, with its result named.

  After the region the result array holds `outT` of the region-entry arrays, a token a column; the one host
  operation after the region transposes it back to a token a row. So entry `(n, o)` of the program's result is
  `outT … (o, n)`, where the weight matrices are the program's arguments and the token array and the bias rows are
  what the operations before the region made of the other three arguments.
-/
import proofs.«148671_g38903813767480_retrytranche2_1377_25_alg».proof.Proof.Blocks
import proofs.«148671_g38903813767480_retrytranche2_1377_25_alg».proof.Proof.Entry
import Idealize.ShloMosaic.Lib.StableHlo.Run
import Idealize.ShloMosaic.Lib.ValueLayout

set_option maxRecDepth 16384

noncomputable section

namespace Cert.Mlp.Result

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The program's result on core `c`: a token a row again. -/
def result (c : Dev nD) : S262144x32.Idx → EReal := fun i =>
  Cert.Mlp.outT (V m c main_v0) (m ((c : Thread nD τ).loc main_arg1)) (V m c main_v1)
    (m ((c : Thread nD τ).loc main_arg3)) (V m c main_v2) (ix2 (i 1) (i 0))

/-- What the operation after the region leaves in the result buffer. -/
theorem tail_eq (c : Dev nD) :
    Pipeline.afterTail₀ cfgs (dats m) 0 (V0 m) [hostOps1] c main_v4 = result m c := by
  unfold Pipeline.afterTail₀
  show StableHlo.after hostOps1 _ (Proc.devRef .tc main_v4) = _
  after_results
  -- the region's result array, then the transpose read at (n, o)
  have hw : Pipeline.withArrays (cfgs 0).spec c (V0 m c) (fun w => (dats m 0 c).arrAt w (cfgs 0).N) (Proc.devRef .tc main_v3)
      = Blocks.wholeT m c :=
    (Pipeline.withArrays_arr spec0 launch0.win.arr_inj c _ _ 5).trans (Blocks.final m c)
  rw [hw]
  funext i
  refine (congrArg (transpose S262144x32 [1, 0] (Blocks.wholeT m c) _) (eq_ix2 (n0 := 262144) (n1 := 32) i)).trans ?_
  refine (transpose_ix2_apply _ _ (i 0) (i 1)).trans ?_
  show Cert.Mlp.outT (V m c main_v0) (V m c main_arg1) (V m c main_v1) (V m c main_arg3) (V m c main_v2) (ix2 (i 1) (i 0))
    = Cert.Mlp.outT (V m c main_v0) (m ((c : Thread nD τ).loc main_arg1)) (V m c main_v1)
        (m ((c : Thread nD τ).loc main_arg3)) (V m c main_v2) (ix2 (i 1) (i 0))
  rw [V_main_arg1 m c, V_main_arg3 m c]

/-- Every weakly fair execution of the kernel program terminates with its result at `result` and its arguments
    unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.Mlp.Result

end
-- ==== Proof.lean ====
/-
  The kernel computes a two-layer perceptron, `out = tanh (x · W1ᵀ + b1) · W2ᵀ + b2`, in the transposed domain: it
  transposes the tokens so that a token is a column, computes `W2 · tanh (W1 · xᵀ + b1ᵀ) + b2ᵀ` band by band over the
  token axis, and transposes the result back. The reference computes the first formula directly.

  Over the extended reals both are, at entry `(n, o)`,
  `∑_k W2[o, k] · tanh (∑_d W1[k, d] · x[n, d] + b1[k]) + b2[o]`, the reference with the two factors of every
  product in the other order: the law that joins them is commutativity of the product, which holds at the
  infinities too, so the precondition (finite inputs) is not used. Changes of float format are the identity there,
  and a matrix product into a zero accumulator is the plain sum of products.

  The modules: `Spec` (the function, with the token axis along columns), `ReferenceRows` (the reference's result is
  that function read with rows and columns exchanged), `Body` (what the kernel body stores at a grid point),
  `Entry` (what the region finds in its arrays), `Blocks` (the eight bands tile the result), `Result` (the kernel
  program's run with its result named), and here the five claims.
-/
import proofs.«148671_g38903813767480_retrytranche2_1377_25_alg».proof.Defs
import proofs.«148671_g38903813767480_retrytranche2_1377_25_alg».proof.Proof.Gen.Kernel
import proofs.«148671_g38903813767480_retrytranche2_1377_25_alg».proof.Proof.Gen.Kernel.Skeleton
import proofs.«148671_g38903813767480_retrytranche2_1377_25_alg».proof.Proof.Gen.Kernel.Launch
import proofs.«148671_g38903813767480_retrytranche2_1377_25_alg».proof.Proof.Gen.Kernel.Points
import proofs.«148671_g38903813767480_retrytranche2_1377_25_alg».proof.Proof.Gen.Kernel.Frame
import proofs.«148671_g38903813767480_retrytranche2_1377_25_alg».proof.Proof.Gen.KernelIdeal
import proofs.«148671_g38903813767480_retrytranche2_1377_25_alg».proof.Proof.Gen.KernelIdeal.Skeleton
import proofs.«148671_g38903813767480_retrytranche2_1377_25_alg».proof.Proof.Gen.KernelIdeal.Launch
import proofs.«148671_g38903813767480_retrytranche2_1377_25_alg».proof.Proof.Gen.KernelIdeal.Points
import proofs.«148671_g38903813767480_retrytranche2_1377_25_alg».proof.Proof.Gen.KernelIdeal.Frame
import proofs.«148671_g38903813767480_retrytranche2_1377_25_alg».proof.Proof.Gen.ReferenceIdeal
import proofs.«148671_g38903813767480_retrytranche2_1377_25_alg».proof.Proof.Gen.Pre_finite_inputs
import proofs.«148671_g38903813767480_retrytranche2_1377_25_alg».proof.Proof.Gen.ReferenceIdeal.Run
import proofs.«148671_g38903813767480_retrytranche2_1377_25_alg».proof.Proof.Gen.ReferenceIdeal.Read
import proofs.«148671_g38903813767480_retrytranche2_1377_25_alg».proof.Proof.ReferenceRows
import proofs.«148671_g38903813767480_retrytranche2_1377_25_alg».proof.Proof.Result
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel program as printed runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten for its reading over the extended reals. -/
theorem preserves : Cert.preserves_Kernel_KernelIdeal := trivial

/-- From memories that agree on the arguments both programs end at `Result.result`: the kernel program by its run,
    the reference because entry `(n, o)` of its result is `outT` at `(o, n)` of the transposed tokens and the bias
    rows, which is what the kernel's region finds in its arrays. -/
theorem algebraic : Cert.algebraic_KernelIdeal_ReferenceIdeal := by
  intro m ρ m' ρ' _ hagree
  refine ⟨fun c => Cert.Mlp.Result.result m c, Cert.Mlp.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, (hagree c).1, (hagree c).2.1, (hagree c).2.2.1, (hagree c).2.2.2.1,
    (hagree c).2.2.2.2]
  funext i
  refine (congrArg _ (eq_ix2 (n0 := 262144) (n1 := 32) i)).trans ?_
  exact Cert.Mlp.Rows.result_apply _ _ _ _ _ (Cert.KernelIdeal.Gen.V m c Cert.KernelIdeal.main_v0)
    (Cert.KernelIdeal.Gen.V m c Cert.KernelIdeal.main_v1) (Cert.KernelIdeal.Gen.V m c Cert.KernelIdeal.main_v2)
    (Cert.Mlp.Entry.tokens_apply m c) (Cert.Mlp.Entry.bias1_apply m c) (Cert.Mlp.Entry.bias2_apply m c) (i 0) (i 1)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
